-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2048 .f32) (main_arg1 : IVec S16384 32) (main_arg2 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 2048#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x2048 : Shape := ⟨2, ![16384, 2048]⟩
abbrev S16384 : Shape := ⟨1, ![16384]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩

abbrev nBuf : Space → Nat
  | .hbm => 13
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S2048x2048, .f32⟩
  | .hbm, ⟨3, _⟩ => ⟨S2048x2048, .bf16⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S16384x1, .i32⟩
  | .hbm, ⟨8, _⟩ => ⟨S16384x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S2048x2048_S2048_d1 : S2048x2048.ReducesTo [1] S2048
  h_S_ : 0 < S_.numel
  shapeCasts_S2048_S1x2048 : S2048.ShapeCasts S1x2048
  shapeCasts_S16384_S16384x1 : S16384.ShapeCasts S16384x1
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  broadcasts_S512x1_S512x2048 : S512x1.Broadcasts S512x2048
  reduces_S512x2048_S512 : S512x2048.Reduces [1] S512
  shapeCasts_S512_S512x1 : S512.ShapeCasts S512x1
  reducesTo_S16384x1_S_d0_1 : S16384x1.ReducesTo [0, 1] S_
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .i32 = 32 ∨ (Rect.block (s := S16384x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S2048x2048 : Shape := ⟨2, ![2048, 2048]⟩
abbrev S_ : Shape := ⟨0, ![]⟩
abbrev S16384x1 : Shape := ⟨2, ![16384, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S2048x2048, .f32⟩
  | .hbm, ⟨3, _⟩ => ⟨S2048x2048, .f32⟩
  | .hbm, ⟨4, _⟩ => ⟨S16384x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x1, .i32⟩
  | .hbm, ⟨20, _⟩ => ⟨S1x2048, .i32⟩
  | .hbm, ⟨21, _⟩ => ⟨S16384x2048, .i32⟩
  | .hbm, ⟨22, _⟩ => ⟨S16384x2048, .i32⟩
  | .hbm, ⟨23, _⟩ => ⟨S16384x2048, .i1⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x2048, .f32⟩
  | .hbm, ⟨29, _⟩ => ⟨S16384x2048, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S_S16384x2048 : S_.BroadcastsInDim S16384x2048 (![] : Fin 0 → Fin S16384x2048.rank)
  bcast_S_S2048x2048 : S_.BroadcastsInDim S2048x2048 (![] : Fin 0 → Fin S2048x2048.rank)
  reducesTo_S16384x2048_S_d0_1 : S16384x2048.ReducesTo [0, 1] S_
  h_S_ : 0 < S_.numel
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.PreDecode.lean ====
/-
  What the precondition says of the three argument arrays: every entry of the inputs and of the code book is a
  real number (its absolute value is below +inf), and every label word, read unsigned, is below 2048 (it is
  at least 0 and below 2048 read signed).
-/
import proofs.«424931_j65798898975305_3_alg».proof.Pre_finite_inputs
import proofs.«424931_j65798898975305_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Idealize.ShloMosaic Cert.Pre_finite_inputs

/-- The result of a reduction over every axis has one index. -/
instance : Subsingleton S_.Idx := ⟨fun a b => funext fun d => d.elim0⟩

/-- The f32 word of +inf is the top of the extended reals. -/
theorem inf_word : Ideal.ofBits .f32 0x7F800000#32 = (⊤ : EReal) := by
  simp [Ideal.ofBits, Ideal.ieee]

/-- An extended real whose absolute value compares below +inf is a real number: |x| = max x (-x) is the top
    element at both infinities, so neither of them passes the comparison. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hlt : max x (-x) < (⊤ : EReal) := by
    have h' : Ideal.cmp .olt (max x (-x)) (Ideal.ofBits .f32 0x7F800000#32) = 1#1 := h
    rw [inf_word] at h'
    unfold Ideal.cmp at h'
    by_contra hn
    simp only [hn, decide_false] at h'
    exact absurd h' (by decide)
  induction x using EReal.rec with
  | bot => exact absurd hlt (by simp)
  | top => exact absurd hlt (by simp)
  | coe r => exact ⟨r, rfl⟩

/-- A word that is at least 0 and below 2048 read signed has its top bit clear, so it reads the same unsigned:
    it is below 2048 read unsigned. -/
theorem word_lt (w : BitVec 32)
    (h : IntOp.andi (IntOp.cmpi .sge w 0#32) (IntOp.cmpi .slt w 2048#32) = 1#1) : w.toNat < 2048 := by
  obtain ⟨h0, h1⟩ := IntOp.andi_eq_one.1 h
  rw [IntOp.cmpi_sge] at h0
  rw [IntOp.cmpi_slt] at h1
  rw [show (0#32 : BitVec 32).toInt = 0 from by decide] at h0
  rw [show (2048#32 : BitVec 32).toInt = 2048 from by decide] at h1
  have hc := BitVec.toInt_eq_toNat_cond w
  have := w.isLt
  split at hc <;> omega

theorem decode [Cert.Pre_finite_inputs.Facts] (x0 : FVec Ideal S16384x2048 .f32) (x1 : IVec S16384 32) (x2 : FVec Ideal S2048x2048 .f32)
    (h : Cert.Pre_finite_inputs.fn (F := Ideal) x0 x1 x2 = fun _ => 1#1) :
    (∀ i, ∃ r : ℝ, x0 i = (r : EReal)) ∧ (∀ i, (x1 i).toNat < 2048) ∧ (∀ i, ∃ r : ℝ, x2 i = (r : EReal)) := by
  -- the predicate's one bit is the conjunction of three bits, each an "all" over one argument array
  have e := congrFun h ValueIdx.ix0
  dsimp only [fn] at e
  obtain ⟨e02, e1⟩ := IntOp.andi_eq_one.1 e
  obtain ⟨e0, e2⟩ := IntOp.andi_eq_one.1 e02
  -- an "all" that is 1 had a 1 at every index; there the bit is the entry's own comparison
  refine ⟨fun i => ?_, fun i => ?_, fun i => ?_⟩
  · exact real_of_abs_lt (x0 i) (Host.reduce_andi_all _ _ _ _ _ e0 i)
  · exact word_lt (x1 i) (Host.reduce_andi_all _ _ _ _ _ e1 i)
  · exact real_of_abs_lt (x2 i) (Host.reduce_andi_all _ _ _ _ _ e2 i)

end Cert.Pre_finite_inputs.Decode

end
-- ==== Proof.Spec.lean ====
/-
  The coding loss as each program computes it on the extended reals, written over the three argument arrays
  read by coordinates: `X b k` the input row `b`, `CB c k` the code word of class `c`, `L b` the label word of row `b`.

  Both programs start from the agreement `dot b c = ∑ k, X b k * CB c k`.

  * The kernel's distance is `pdist b c = -2 * dot b c + ∑ k, CB c k`; a row's loss is
    `log (∑ c, exp (rowMin b - pdist b c)) + pdist b (label b) - rowMin b`, the label's term picked by a
    sum of `select`s against the class index, `rowMin b` the row's least distance.
  * The reference's distance is `hdist b c = -(dot b c + ∑ k, (1 - X b k) * (1 - CB c k))`, shifted by
    a number `M` (its least value over all rows and classes); a row's loss is
    `log (1 + (∑ c, exp (-(hdist b c - M)) - e) / e)` with `e = exp (-(hdist b (label b) - M))`, the label's term
    picked by a sum against the one-hot row of the label.

  Each program's result is the sum of the rows' losses divided by the number of rows.
  The three float words are kept as words; Bridge.lean evaluates the ones it needs.
-/
import Idealize.ShloMosaic.PureOps.Ideal

noncomputable section

namespace Cert.Coding

open Idealize.ShloMosaic

/-- The words the programs carry: `-2.0`, `1.0`, `16384.0` and `+inf` in f32. -/
abbrev negTwo : EReal := Ideal.ofBits .f32 0xC0000000#32
abbrev one : EReal := Ideal.ofBits .f32 0x3F800000#32
abbrev nRows : EReal := Ideal.ofBits .f32 0x46800000#32
abbrev posInf : EReal := Ideal.ofBits .f32 0x7F800000#32

variable (X : Fin 16384 → Fin 2048 → EReal) (CB : Fin 2048 → Fin 2048 → EReal) (L : Fin 16384 → BitVec 32)

/-- Row `b` against code word `c`. -/
def dot (b : Fin 16384) (c : Fin 2048) : EReal := ∑ k : Fin 2048, X b k * CB c k

/-- The sum of code word `c`. -/
def codeSum (c : Fin 2048) : EReal := ∑ k : Fin 2048, CB c k

/-- The kernel's distance: the Hamming-like distance less the part that is constant along a row. -/
def pdist (b : Fin 16384) (c : Fin 2048) : EReal := negTwo * dot X CB b c + codeSum CB c

/-- Whether class `c` is row `b`'s label, as the one bit both programs compute. -/
def isLabel (b : Fin 16384) (c : Fin 2048) : BitVec 1 := IntOp.cmpi .eq (L b) (BitVec.ofNat 32 c.val)

/-- The least kernel distance of row `b`, folded from `+inf`. -/
def rowMin (b : Fin 16384) : EReal := (Finset.univ : Finset (Fin 2048)).fold min posInf (fun c => pdist X CB b c)

/-- The kernel's loss of row `b`. -/
def rowK (b : Fin 16384) : EReal :=
  Ideal.log (∑ c : Fin 2048, Ideal.exp (rowMin X CB b - pdist X CB b c))
    + (∑ c : Fin 2048, Scalar.select (isLabel L b c) (pdist X CB b c) (0 : EReal)) - rowMin X CB b

/-- The kernel's result. -/
def lossK : EReal := Ideal.div (∑ b : Fin 16384, rowK X CB L b) nRows

/-- The kernel's distance of one row `xr` to class `c`, from the code words `W` and their sums `s`. -/
def pdistOf (xr : Fin 2048 → EReal) (W : Fin 2048 → Fin 2048 → EReal) (s : Fin 2048 → EReal) (c : Fin 2048) : EReal :=
  negTwo * (∑ k : Fin 2048, xr k * W c k) + s c

/-- The kernel's loss of one row `xr` with label word `l`: what one row of a block computes. -/
def rowOf (xr : Fin 2048 → EReal) (W : Fin 2048 → Fin 2048 → EReal) (s : Fin 2048 → EReal) (l : BitVec 32) : EReal :=
  Ideal.log (∑ c : Fin 2048, Ideal.exp ((Finset.univ : Finset (Fin 2048)).fold min posInf (fun c => pdistOf xr W s c) - pdistOf xr W s c))
    + (∑ c : Fin 2048, Scalar.select (IntOp.cmpi .eq l (BitVec.ofNat 32 c.val)) (pdistOf xr W s c) (0 : EReal))
    - (Finset.univ : Finset (Fin 2048)).fold min posInf (fun c => pdistOf xr W s c)

/-- A row of the array is a row of its block. -/
theorem rowK_eq_rowOf (b : Fin 16384) : rowK X CB L b = rowOf (X b) CB (codeSum CB) (L b) := rfl

/-- The reference's distance. -/
def hdist (b : Fin 16384) (c : Fin 2048) : EReal :=
  -(dot X CB b c + ∑ k : Fin 2048, (one - X b k) * (one - CB c k))

/-- The reference's distance shifted by `M`. -/
def shifted (M : EReal) (b : Fin 16384) (c : Fin 2048) : EReal := hdist X CB b c - M

/-- The shifted distance at the label, picked by the one-hot row. -/
def labelDist (M : EReal) (b : Fin 16384) : EReal :=
  ∑ c : Fin 2048, shifted X CB M b c * (((isLabel L b c).toNat : ℝ) : EReal)

/-- The reference's loss of row `b`. -/
def rowR (M : EReal) (b : Fin 16384) : EReal :=
  Ideal.log (one + Ideal.div ((∑ c : Fin 2048, Ideal.exp (-(shifted X CB M b c))) - Ideal.exp (-(labelDist X CB L M b)))
    (Ideal.exp (-(labelDist X CB L M b))))

/-- The reference's result. -/
def lossR (M : EReal) : EReal := Ideal.div (∑ b : Fin 16384, rowR X CB L M b) nRows

end Cert.Coding

end
-- ==== Proof.Bridge.lean ====
/-
  The two losses are one function where the entries are real numbers and every label names a class.

  Write `d c` for the product of a row with code word `c`, `s c` for the code word's sum, `σ` for the row's sum.
  The kernel's distance is `p c = -2 d c + s c`. Expanding `∑ k, (1 - x k) (1 - y k) = 2048 - σ - s c + d c` shows the
  reference's distance to be `h c = p c + (σ - 2048)`: the two differ by a number that does not depend on the class.
  With `l` the label's class, both rows' losses are `log (∑ c, exp (p l - p c))`:
    the kernel's `log (∑ c, exp (μ' - p c)) + p l - μ'` for ANY real `μ'` (it uses the row's minimum),
    the reference's `log (1 + (∑ c, exp (-(h c - μ)) - e) / e)`, `e = exp (-(h l - μ))`, for ANY real `μ` (it uses
    the least distance of all), because `h l - h c = p l - p c`.
  Nothing here needs the minima's values, only that they are real numbers; that, and the distributive law in
  the expansion, is where finiteness of the entries is used. The label's term is picked out of a sum over the
  classes by a `select` (kernel) or a product with a one-hot row (reference): for a label word below 2048 exactly
  one class matches it.
-/
import proofs.«424931_j65798898975305_3_alg».proof.Proof.Spec

noncomputable section

namespace Cert.Coding

open Idealize.ShloMosaic

/-! ## The words' values -/

theorem negTwo_eq : negTwo = ((-2 : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem posInf_eq : posInf = ⊤ := by
  simp [Ideal.ofBits, Ideal.ieee]

/-! ## Real numbers inside the extended reals -/

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The least of finitely many real numbers, folded from `+∞`, is a real number when there is at least one. -/
theorem fold_min_real {ι : Type} (s : Finset ι) (hs : s.Nonempty) (f : ι → ℝ) :
    ∃ r : ℝ, s.fold min (⊤ : EReal) (fun i => (f i : EReal)) = (r : EReal) := by
  have hbot : s.fold min (⊤ : EReal) (fun i => (f i : EReal)) ≠ ⊥ := by
    apply ne_of_gt
    rw [Finset.lt_fold_min]
    exact ⟨bot_lt_top, fun i _ => EReal.bot_lt_coe _⟩
  have htop : s.fold min (⊤ : EReal) (fun i => (f i : EReal)) ≠ ⊤ := by
    apply ne_of_lt
    rw [Finset.fold_min_lt]
    obtain ⟨i, hi⟩ := hs
    exact Or.inr ⟨i, hi, EReal.coe_lt_top _⟩
  exact ⟨_, (EReal.coe_toReal htop hbot).symm⟩

/-! ## The two laws, over the reals -/

/-- The reference's distance is the kernel's plus a number that does not depend on the class. -/
theorem hamming {n : ℕ} (x y : Fin n → ℝ) :
    -((∑ k, x k * y k) + ∑ k, (1 - x k) * (1 - y k)) = (-2 * (∑ k, x k * y k) + ∑ k, y k) + ((∑ k, x k) - n) := by
  have e : ∀ k, (1 - x k) * (1 - y k) = 1 - x k - y k + x k * y k := fun k => by ring
  simp only [e, Finset.sum_add_distrib, Finset.sum_sub_distrib, Finset.sum_const, Finset.card_univ, Fintype.card_fin,
    nsmul_eq_mul, mul_one]
  ring

/-- Both rows' losses are `log (∑ c, exp (p l - p c))`. -/
theorem lse_core {n : ℕ} (p h : Fin n → ℝ) (κ μ μ' : ℝ) (l : Fin n) (hh : ∀ c, h c = p c + κ) :
    Real.log (∑ c, Real.exp (μ' - p c)) + p l - μ'
      = Real.log (1 + ((∑ c, Real.exp (-(h c - μ))) - Real.exp (-(h l - μ))) * (1 / Real.exp (-(h l - μ)))) := by
  set A : ℝ := ∑ c, Real.exp (p l - p c) with hA
  have hApos : 0 < A := Finset.sum_pos (fun c _ => Real.exp_pos _) ⟨l, Finset.mem_univ l⟩
  have h1 : (∑ c, Real.exp (μ' - p c)) = Real.exp (μ' - p l) * A := by
    rw [hA, Finset.mul_sum]
    refine Finset.sum_congr rfl fun c _ => ?_
    rw [← Real.exp_add]; congr 1; ring
  have h2 : (∑ c, Real.exp (-(h c - μ))) = Real.exp (-(h l - μ)) * A := by
    rw [hA, Finset.mul_sum]
    refine Finset.sum_congr rfl fun c _ => ?_
    rw [← Real.exp_add, hh c, hh l]; congr 1; ring
  have he : Real.exp (-(h l - μ)) ≠ 0 := (Real.exp_pos _).ne'
  rw [h1, h2, Real.log_mul (Real.exp_pos _).ne' hApos.ne', Real.log_exp]
  have : 1 + (Real.exp (-(h l - μ)) * A - Real.exp (-(h l - μ))) * (1 / Real.exp (-(h l - μ))) = A := by
    field_simp; ring
  rw [this]; ring

/-- The number under the reference's logarithm is positive: it is `(∑ c, exp (-(h c - μ))) / e`. -/
theorem lse_arg_pos {n : ℕ} (h : Fin n → ℝ) (μ : ℝ) (l : Fin n) :
    0 < 1 + ((∑ c, Real.exp (-(h c - μ))) - Real.exp (-(h l - μ))) * (1 / Real.exp (-(h l - μ))) := by
  have he : 0 < Real.exp (-(h l - μ)) := Real.exp_pos _
  have hS : 0 < ∑ c, Real.exp (-(h c - μ)) := Finset.sum_pos (fun c _ => Real.exp_pos _) ⟨l, Finset.mem_univ l⟩
  have : 1 + ((∑ c, Real.exp (-(h c - μ))) - Real.exp (-(h l - μ))) * (1 / Real.exp (-(h l - μ)))
      = (∑ c, Real.exp (-(h c - μ))) / Real.exp (-(h l - μ)) := by
    field_simp; ring
  rw [this]; exact div_pos hS he

/-! ## The label's class -/

variable (X : Fin 16384 → Fin 2048 → EReal) (CB : Fin 2048 → Fin 2048 → EReal) (L : Fin 16384 → BitVec 32)

/-- A label word below 2048 matches exactly the class it names. -/
theorem isLabel_eq_one_iff (b : Fin 16384) (hL : (L b).toNat < 2048) (c : Fin 2048) :
    isLabel L b c = 1#1 ↔ c = ⟨(L b).toNat, hL⟩ := by
  have ob : ∀ t : Bool, BitVec.ofBool t = 1#1 ↔ t = true := by decide
  have e : isLabel L b c = 1#1 ↔ L b = BitVec.ofNat 32 c.val := by
    simp only [isLabel, IntOp.cmpi, ob, beq_iff_eq]
  rw [e]
  constructor
  · intro h'
    apply Fin.ext
    have h2 := congrArg BitVec.toNat h'
    rw [BitVec.toNat_ofNat] at h2
    have := c.isLt
    show c.val = (L b).toNat
    omega
  · rintro rfl
    simp

/-- Any other class does not. -/
theorem isLabel_eq_zero (b : Fin 16384) (hL : (L b).toNat < 2048) (c : Fin 2048) (hc : c ≠ ⟨(L b).toNat, hL⟩) :
    isLabel L b c = 0#1 := by
  have h1 : isLabel L b c ≠ 1#1 := fun e => hc ((isLabel_eq_one_iff L b hL c).mp e)
  revert h1; generalize isLabel L b c = w; revert w; decide

/-! ## A row's loss -/

theorem row_eq (hX : ∀ b k, ∃ r : ℝ, X b k = (r : EReal)) (hCB : ∀ c k, ∃ r : ℝ, CB c k = (r : EReal))
    (hL : ∀ b, (L b).toNat < 2048) (M : EReal) (hM : ∃ r : ℝ, M = (r : EReal)) (b : Fin 16384) :
    rowK X CB L b = rowR X CB L M b := by
  choose x hx using hX
  choose y hy using hCB
  obtain ⟨μ, rfl⟩ := hM
  set l : Fin 2048 := ⟨(L b).toNat, hL b⟩ with hl
  -- the real quantities: the products, the code words' sums, the two distances
  set d : Fin 2048 → ℝ := fun c => ∑ k, x b k * y c k with hd
  set s : Fin 2048 → ℝ := fun c => ∑ k, y c k with hs
  set p : Fin 2048 → ℝ := fun c => -2 * d c + s c with hpdef
  set h : Fin 2048 → ℝ := fun c => -(d c + ∑ k, (1 - x b k) * (1 - y c k)) with hhdef
  have hκ : ∀ c, h c = p c + ((∑ k, x b k) - (2048 : ℕ)) := fun c => hamming (x b) (y c)
  have hdot : ∀ c, dot X CB b c = ((d c : ℝ) : EReal) := fun c => by
    unfold dot; rw [hd, coe_sum]
    exact Finset.sum_congr rfl fun k _ => by rw [hx, hy, EReal.coe_mul]
  have hsum : ∀ c, codeSum CB c = ((s c : ℝ) : EReal) := fun c => by
    unfold codeSum; rw [hs, coe_sum]
    exact Finset.sum_congr rfl fun k _ => by rw [hy]
  have hp : ∀ c, pdist X CB b c = ((p c : ℝ) : EReal) := fun c => by
    unfold pdist; rw [hdot, hsum, negTwo_eq, ← EReal.coe_mul, ← EReal.coe_add]
  have hh : ∀ c, hdist X CB b c = ((h c : ℝ) : EReal) := fun c => by
    unfold hdist
    have e : (∑ k : Fin 2048, (one - X b k) * (one - CB c k)) = ((∑ k, (1 - x b k) * (1 - y c k) : ℝ) : EReal) := by
      rw [coe_sum]
      exact Finset.sum_congr rfl fun k _ => by rw [hx, hy, one_eq, ← EReal.coe_sub, ← EReal.coe_sub, ← EReal.coe_mul]
    rw [hdot, e, ← EReal.coe_add, ← EReal.coe_neg]
  -- the row's minimum is a real number
  obtain ⟨μ', hμ'⟩ : ∃ r : ℝ, rowMin X CB b = (r : EReal) := by
    unfold rowMin
    rw [posInf_eq, show (fun c => pdist X CB b c) = fun c => ((p c : ℝ) : EReal) from funext hp]
    exact fold_min_real _ Finset.univ_nonempty p
  -- the label's term on each side
  have hselK : (∑ c : Fin 2048, Scalar.select (isLabel L b c) (pdist X CB b c) (0 : EReal)) = ((p l : ℝ) : EReal) := by
    rw [Finset.sum_eq_single l]
    · rw [(isLabel_eq_one_iff L b (hL b) l).mpr rfl, hp]; rfl
    · intro c _ hc
      rw [isLabel_eq_zero L b (hL b) c hc]; rfl
    · intro hne; exact absurd (Finset.mem_univ l) hne
  have hselR : labelDist X CB L (μ : EReal) b = ((h l - μ : ℝ) : EReal) := by
    unfold labelDist
    rw [Finset.sum_eq_single l]
    · rw [(isLabel_eq_one_iff L b (hL b) l).mpr rfl]
      unfold shifted; rw [hh, ← EReal.coe_sub]
      simp
    · intro c _ hc
      rw [isLabel_eq_zero L b (hL b) c hc]
      simp
    · intro hne; exact absurd (Finset.mem_univ l) hne
  unfold rowK rowR
  rw [hμ', hselK, hselR]
  simp only [shifted, hp, hh]
  -- every exponential is of a real number
  have e1 : ∀ c, Ideal.exp ((μ' : EReal) - ((p c : ℝ) : EReal)) = ((Real.exp (μ' - p c) : ℝ) : EReal) := fun c => by
    rw [← EReal.coe_sub]; rfl
  have e2 : ∀ c, Ideal.exp (-(((h c : ℝ) : EReal) - (μ : EReal))) = ((Real.exp (-(h c - μ)) : ℝ) : EReal) := fun c => by
    rw [← EReal.coe_sub, ← EReal.coe_neg]; rfl
  have e3 : Ideal.exp (-((h l - μ : ℝ) : EReal)) = ((Real.exp (-(h l - μ)) : ℝ) : EReal) := by
    rw [← EReal.coe_neg]; rfl
  simp only [e1, e2, e3, ← coe_sum]
  have S1pos : 0 < ∑ c, Real.exp (μ' - p c) := Finset.sum_pos (fun c _ => Real.exp_pos _) ⟨l, Finset.mem_univ l⟩
  have lhs : Ideal.log ((∑ c, Real.exp (μ' - p c) : ℝ) : EReal) + ((p l : ℝ) : EReal) - (μ' : EReal)
      = ((Real.log (∑ c, Real.exp (μ' - p c)) + p l - μ' : ℝ) : EReal) := by
    rw [Ideal.log_coe, if_neg (not_le.mpr S1pos), ← EReal.coe_add, ← EReal.coe_sub]
  have rhs : Ideal.log (one + Ideal.div (((∑ c, Real.exp (-(h c - μ)) : ℝ) : EReal) - ((Real.exp (-(h l - μ)) : ℝ) : EReal))
        ((Real.exp (-(h l - μ)) : ℝ) : EReal))
      = ((Real.log (1 + ((∑ c, Real.exp (-(h c - μ))) - Real.exp (-(h l - μ))) * (1 / Real.exp (-(h l - μ)))) : ℝ) : EReal) := by
    rw [Ideal.div_coe (Real.exp_pos _).ne', one_eq, ← EReal.coe_sub, ← EReal.coe_mul, ← EReal.coe_add, Ideal.log_coe,
      if_neg (not_le.mpr (lse_arg_pos h μ l))]
  rw [lhs, rhs]
  exact congrArg _ (lse_core p h _ μ μ' l hκ)

/-! ## The results -/

theorem lossK_eq_lossR (hX : ∀ b k, ∃ r : ℝ, X b k = (r : EReal)) (hCB : ∀ c k, ∃ r : ℝ, CB c k = (r : EReal))
    (hL : ∀ b, (L b).toNat < 2048) (M : EReal) (hM : ∃ r : ℝ, M = (r : EReal)) :
    lossK X CB L = lossR X CB L M := by
  unfold lossK lossR
  exact congrArg (fun t => Ideal.div t nRows) (Finset.sum_congr rfl fun b _ => row_eq X CB L hX hCB hL M hM b)

end Cert.Coding

end
-- ==== Proof.RefValue.lean ====
/-
  The reference's result, read operation by operation, is the specification's `lossR` of the argument arrays,
  shifted by the reference's own least distance; and that least distance is a real number when the arrays are.
-/
import proofs.«424931_j65798898975305_3_alg».proof.Proof.Gen.ReferenceIdeal.Read
import proofs.«424931_j65798898975305_3_alg».proof.Proof.Spec
import Idealize.ShloMosaic.Lib.ValueIdx
import Idealize.ShloMosaic.PureOps.Ideal.Laws
import Idealize.ShloMosaic.PureOps.Reduce
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

section Entries

variable (x0 : (⟨S16384x2048, .f32⟩ : BufTy).Contents (Elt Ideal)) (x1 : (⟨S16384, .i32⟩ : BufTy).Contents (Elt Ideal))
  (x2 : (⟨S2048x2048, .f32⟩ : BufTy).Contents (Elt Ideal))

/-- The input rows by coordinates. -/
abbrev rows : Fin 16384 → Fin 2048 → EReal := fun b k => x0 (ix2 b k)
/-- The code words by coordinates. -/
abbrev codes : Fin 2048 → Fin 2048 → EReal := fun c k => x2 (ix2 c k)
/-- The label words by coordinate. -/
abbrev labels : Fin 16384 → BitVec 32 := fun b => x1 (ix1 b)

/-- The transposed code book at (k, c) is the code book at (c, k). -/
theorem codeT_at (k c : Fin 2048) : val_main_v0 (F := Ideal) x2 (ix2 k c) = x2 (ix2 c k) := by
  rw [val_main_v0_apply]
  exact congrArg x2 (funext fun a => Fin.ext (by match a with | ⟨0, _⟩ => rfl | ⟨1, _⟩ => rfl))

/-- The first product is the rows against the code words. -/
theorem dot_at (b : Fin 16384) (c : Fin 2048) :
    val_main_v1 (F := Ideal) x0 x2 (ix2 b c) = Cert.Coding.dot (rows x0) (codes x2) b c := by
  rw [val_main_v1_apply]
  unfold Cert.Coding.dot
  refine Finset.sum_congr rfl fun k _ => ?_
  have el : lidx_main_v1 (ix2 b c) k = ix2 b k :=
    funext fun a => Fin.ext (by match a with | ⟨0, _⟩ => rfl | ⟨1, _⟩ => rfl)
  have er : ridx_main_v1 (ix2 b c) k = ix2 k c :=
    funext fun a => Fin.ext (by match a with | ⟨0, _⟩ => rfl | ⟨1, _⟩ => rfl)
  rw [el, er, codeT_at]

end Entries

section Entries2

variable (x0 : (⟨S16384x2048, .f32⟩ : BufTy).Contents (Elt Ideal)) (x1 : (⟨S16384, .i32⟩ : BufTy).Contents (Elt Ideal))
  (x2 : (⟨S2048x2048, .f32⟩ : BufTy).Contents (Elt Ideal))

/-- The complemented rows. -/
theorem compRow_at (b : Fin 16384) (k : Fin 2048) :
    val_main_v3 (F := Ideal) x0 (ix2 b k) = Cert.Coding.one - x0 (ix2 b k) := by
  rw [val_main_v3_apply, val_main_v2_apply, val_main_cst_apply, Ideal.ofBits_def, Ideal.subf_def]

/-- The complemented code book, transposed. -/
theorem compCodeT_at (k c : Fin 2048) :
    val_main_v6 (F := Ideal) x2 (ix2 k c) = Cert.Coding.one - x2 (ix2 c k) := by
  have e : idx_main_v6 (ix2 k c) = ix2 c k :=
    funext fun a => Fin.ext (by match a with | ⟨0, _⟩ => rfl | ⟨1, _⟩ => rfl)
  rw [val_main_v6_apply, e, val_main_v5_apply, val_main_v4_apply, val_main_cst_0_apply, Ideal.ofBits_def,
    Ideal.subf_def]

/-- The second product is the complemented rows against the complemented code words. -/
theorem compDot_at (b : Fin 16384) (c : Fin 2048) :
    val_main_v7 (F := Ideal) x0 x2 (ix2 b c)
      = ∑ k : Fin 2048, (Cert.Coding.one - rows x0 b k) * (Cert.Coding.one - codes x2 c k) := by
  rw [val_main_v7_apply]
  refine Finset.sum_congr rfl fun k _ => ?_
  have el : lidx_main_v7 (ix2 b c) k = ix2 b k :=
    funext fun a => Fin.ext (by match a with | ⟨0, _⟩ => rfl | ⟨1, _⟩ => rfl)
  have er : ridx_main_v7 (ix2 b c) k = ix2 k c :=
    funext fun a => Fin.ext (by match a with | ⟨0, _⟩ => rfl | ⟨1, _⟩ => rfl)
  rw [el, er, compRow_at, compCodeT_at]

/-- The reference's distance. -/
theorem hdist_at (b : Fin 16384) (c : Fin 2048) :
    val_main_v9 (F := Ideal) x0 x2 (ix2 b c) = Cert.Coding.hdist (rows x0) (codes x2) b c := by
  rw [val_main_v9_apply, val_main_v8_apply, dot_at, compDot_at, Ideal.hostNegf_def, Ideal.negf_def, Ideal.addf_def]
  rfl

/-- The distance less the least distance. -/
theorem shifted_at (b : Fin 16384) (c : Fin 2048) :
    val_main_v12 (F := Ideal) x0 x2 (ix2 b c)
      = Cert.Coding.shifted (rows x0) (codes x2) (val_main_v10 (F := Ideal) x0 x2 ix0) b c := by
  rw [val_main_v12_apply, val_main_v11_apply, hdist_at, Ideal.subf_def, eq_ix0 (idx_main_v11 (ix2 b c))]
  rfl

/-- The one-hot row of the label. -/
theorem oneHot_at (b : Fin 16384) (c : Fin 2048) :
    val_main_v13 (F := Ideal) x1 (ix2 b c) = (((Cert.Coding.isLabel (labels x1) b c).toNat : ℝ) : EReal) := by
  have e2 : idx_main_call0_v0 (idx_main_call0_v2 (ix2 b c)) = ix1 b :=
    funext fun a => Fin.ext (by match a with | ⟨0, _⟩ => rfl)
  rw [val_main_v13_apply, val_main_call0_v4_apply, val_main_call0_v2_apply, val_main_call0_v0_apply, e2,
    val_main_call0_v3_apply, val_main_call0_v1_apply]
  rfl

end Entries2

section Rows

variable (x0 : (⟨S16384x2048, .f32⟩ : BufTy).Contents (Elt Ideal)) (x1 : (⟨S16384, .i32⟩ : BufTy).Contents (Elt Ideal))
  (x2 : (⟨S2048x2048, .f32⟩ : BufTy).Contents (Elt Ideal))

/-- The shifted distance at the label: the row sum of the shifted distances against the one-hot row. -/
theorem labelDist_at (b : Fin 16384) :
    val_main_v15 (F := Ideal) x0 x1 x2 (ix1 b)
      = Cert.Coding.labelDist (rows x0) (codes x2) (labels x1) (val_main_v10 (F := Ideal) x0 x2 ix0) b := by
  rw [val_main_v15_apply, val_main_cst_2_apply, Ideal.ofBits_def, Ideal.ofBits_zero_f32, zero_add]
  unfold Cert.Coding.labelDist
  refine Finset.sum_congr rfl fun c _ => ?_
  have e : idx_main_v15 (ix1 b) c = ix2 b c :=
    funext fun a => Fin.ext (by match a with | ⟨0, _⟩ => rfl | ⟨1, _⟩ => rfl)
  rw [e, val_main_v14_apply, shifted_at, oneHot_at, Ideal.mulf_def]

/-- The row sum of the exponentials of the negated shifted distances. -/
theorem expSum_at (b : Fin 16384) :
    val_main_v20 (F := Ideal) x0 x2 (ix1 b)
      = ∑ c : Fin 2048, Ideal.exp (-(Cert.Coding.shifted (rows x0) (codes x2) (val_main_v10 (F := Ideal) x0 x2 ix0) b c)) := by
  rw [val_main_v20_apply, val_main_cst_3_apply, Ideal.ofBits_def, Ideal.ofBits_zero_f32, zero_add]
  refine Finset.sum_congr rfl fun c _ => ?_
  have e : idx_main_v20 (ix1 b) c = ix2 b c :=
    funext fun a => Fin.ext (by match a with | ⟨0, _⟩ => rfl | ⟨1, _⟩ => rfl)
  rw [e, val_main_v17_apply, val_main_v16_apply, shifted_at, Ideal.hostNegf_def, Ideal.negf_def,
    Ideal.hostUnary_exp_def]

/-- The exponential of the negated label distance. -/
theorem expLabel_at (b : Fin 16384) :
    val_main_v19 (F := Ideal) x0 x1 x2 (ix1 b)
      = Ideal.exp (-(Cert.Coding.labelDist (rows x0) (codes x2) (labels x1) (val_main_v10 (F := Ideal) x0 x2 ix0) b)) := by
  rw [val_main_v19_apply, val_main_v18_apply, labelDist_at, Ideal.hostNegf_def, Ideal.negf_def,
    Ideal.hostUnary_exp_def]

/-- The loss of one row. -/
theorem rowLoss_at (b : Fin 16384) :
    val_main_v25 (F := Ideal) x0 x1 x2 (ix1 b)
      = Cert.Coding.rowR (rows x0) (codes x2) (labels x1) (val_main_v10 (F := Ideal) x0 x2 ix0) b := by
  rw [val_main_v25_apply, val_main_v24_apply, val_main_v23_apply, val_main_cst_4_apply, val_main_v22_apply,
    val_main_v21_apply, expSum_at, expLabel_at, Ideal.ofBits_def, Ideal.subf_def, Ideal.hostDivf_def,
    Ideal.addf_def, Ideal.hostUnary_log_def]
  rfl

end Rows

theorem result_eq (x0 : (⟨S16384x2048, .f32⟩ : BufTy).Contents (Elt Ideal)) (x1 : (⟨S16384, .i32⟩ : BufTy).Contents (Elt Ideal))
    (x2 : (⟨S2048x2048, .f32⟩ : BufTy).Contents (Elt Ideal)) :
    val_main_v27 (F := Ideal) x0 x1 x2
      = fun _ => Cert.Coding.lossR (fun b k => x0 (ix2 b k)) (fun c k => x2 (ix2 c k)) (fun b => x1 (ix1 b))
          (val_main_v10 (F := Ideal) x0 x2 ix0) := by
  funext i
  rw [val_main_v27_apply, val_main_v26_apply, val_main_cst_5_apply, val_main_cst_6_apply, Ideal.ofBits_def,
    Ideal.ofBits_def, Ideal.ofBits_zero_f32, zero_add, Ideal.hostDivf_def]
  have hsum : ∑ j : S16384.Idx, val_main_v25 (F := Ideal) x0 x1 x2 j
      = ∑ b : Fin 16384, Cert.Coding.rowR (rows x0) (codes x2) (labels x1) (val_main_v10 (F := Ideal) x0 x2 ix0) b :=
    (Fintype.sum_equiv ⟨fun b : Fin 16384 => (ix1 b : S16384.Idx), fun j => j 0, fun _ => rfl,
      fun j => (eq_ix1 j).symm⟩ _ _ fun b => (rowLoss_at x0 x1 x2 b).symm).symm
  rw [hsum]
  rfl

section Finite

/-- A finite sum of real numbers is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨t, ht⟩ := ih (fun i hi => h i (Finset.mem_insert_of_mem hi))
    exact ⟨r + t, by rw [Finset.sum_insert ha, hr, ht, EReal.coe_add]⟩

/-- The least of finitely many real numbers, at least one of them, is a real number. -/
theorem fold_min_real {ι : Type} (s : Finset ι) (hs : s.Nonempty) (f : ι → EReal)
    (h : ∀ i ∈ s, ∃ r : ℝ, f i = (r : EReal)) : ∃ r : ℝ, s.fold min (⊤ : EReal) f = (r : EReal) := by
  obtain ⟨a, ha⟩ := hs
  have hbot : s.fold min (⊤ : EReal) f ≠ ⊥ := by
    refine ne_of_gt ((Finset.lt_fold_min _).mpr ⟨bot_lt_top, fun x hx => ?_⟩)
    obtain ⟨r, hr⟩ := h x hx
    rw [hr]; exact EReal.bot_lt_coe r
  have htop : s.fold min (⊤ : EReal) f ≠ ⊤ := by
    refine ne_of_lt ((Finset.fold_min_lt _).mpr (Or.inr ⟨a, ha, ?_⟩))
    obtain ⟨r, hr⟩ := h a ha
    rw [hr]; exact EReal.coe_lt_top r
  exact ⟨_, (EReal.coe_toReal htop hbot).symm⟩

/-- The reference's distance between real arrays is a real number. -/
theorem hdist_real (X : Fin 16384 → Fin 2048 → EReal) (CB : Fin 2048 → Fin 2048 → EReal)
    (hX : ∀ b k, ∃ r : ℝ, X b k = (r : EReal)) (hC : ∀ c k, ∃ r : ℝ, CB c k = (r : EReal))
    (b : Fin 16384) (c : Fin 2048) : ∃ r : ℝ, Cert.Coding.hdist X CB b c = (r : EReal) := by
  unfold Cert.Coding.hdist Cert.Coding.dot
  obtain ⟨p, hp⟩ := sum_real Finset.univ (fun k => X b k * CB c k) (fun k _ => by
    obtain ⟨u, hu⟩ := hX b k
    obtain ⟨v, hv⟩ := hC c k
    exact ⟨u * v, by rw [hu, hv, EReal.coe_mul]⟩)
  obtain ⟨q, hq⟩ := sum_real Finset.univ (fun k => (Cert.Coding.one - X b k) * (Cert.Coding.one - CB c k))
    (fun k _ => by
      obtain ⟨u, hu⟩ := hX b k
      obtain ⟨v, hv⟩ := hC c k
      have h1 : Cert.Coding.one = ((1 : ℝ) : EReal) := Ideal.ofBits_one_f32.trans EReal.coe_one.symm
      exact ⟨(1 - u) * (1 - v), by rw [hu, hv, h1, EReal.coe_mul, EReal.coe_sub, EReal.coe_sub]⟩)
  exact ⟨-(p + q), by rw [hp, hq, EReal.coe_neg, EReal.coe_add]⟩

end Finite

theorem globalMin_real (x0 : (⟨S16384x2048, .f32⟩ : BufTy).Contents (Elt Ideal)) (x2 : (⟨S2048x2048, .f32⟩ : BufTy).Contents (Elt Ideal))
    (h0 : ∀ i, ∃ r : ℝ, x0 i = (r : EReal)) (h2 : ∀ i, ∃ r : ℝ, x2 i = (r : EReal)) :
    ∃ r : ℝ, val_main_v10 (F := Ideal) x0 x2 ix0 = (r : EReal) := by
  have hinit : Ideal.ofBits .f32 0x7F800000#32 = (⊤ : EReal) := by simp [Ideal.ofBits, Ideal.ieee]
  have hfold : val_main_v10 (F := Ideal) x0 x2 ix0
      = (Finset.univ : Finset S16384x2048.Idx).fold min (⊤ : EReal) (val_main_v9 (F := Ideal) x0 x2) := by
    unfold val_main_v10
    rw [Host.reduce_eq_fold, val_main_cst_1_apply, Ideal.ofBits_def, hinit,
      Finset.filter_true_of_mem (fun i _ => (eq_ix0 _).trans (eq_ix0 _).symm)]
    rfl
  rw [hfold]
  refine fold_min_real _ ⟨ix2 ⟨0, by decide⟩ ⟨0, by decide⟩, Finset.mem_univ _⟩ _ fun i _ => ?_
  obtain ⟨b, c, rfl⟩ : ∃ (b : Fin 16384) (c : Fin 2048), i = ix2 b c := ⟨i 0, i 1, eq_ix2 i⟩
  rw [hdist_at]
  exact hdist_real _ _ (fun b k => h0 _) (fun c k => h2 _) _ _

end Cert.ReferenceIdeal.RefValue

end
-- ==== Proof.KerPayload.lean ====
/-
  One row of what the kernel body stores, as a function of the rows it loaded: the specification's `rowOf`.
-/
import proofs.«424931_j65798898975305_3_alg».proof.Proof.Gen.KernelIdeal.Skeleton
import proofs.«424931_j65798898975305_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerPayload

open Cert.KernelIdeal Cert.KernelIdeal.Gen Idealize.ShloMosaic Idealize.ShloMosaic.ValueIdx

/-! ## Layout operations in column form -/

section Layout
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along a row -/

/-- The source index of a row reduction over result index `r` at column `c` is `(r, c)`. -/
theorem lift_row (h : S512x2048.Reduces [1] S512) (r : Fin 512) (c : Fin 2048) :
    h.lift (ix1 r) c = ix2 r c := by
  funext a
  apply Fin.ext
  match a with
  | ⟨0, _⟩ => rfl
  | ⟨1, _⟩ => rfl

/-- A row sum read at row `r`: the sum over the columns. -/
theorem rowSum_apply (src : FVec Ideal S512x2048 .f32) (h : S512x2048.Reduces [1] S512) (hφ : FKind.Formats .f32)
    (hacc : (0x00000000#32 : BitVec 32) = 0x00000000#32) (r : Fin 512) :
    multiReduction (F := Ideal) .add [1] S512 src 0x00000000#32 h hφ hacc (ix1 r) = ∑ c : Fin 2048, src (ix2 r c) :=
  (Ideal.multiReduction_add_single src 0x00000000#32 h hφ hacc (ix1 r)).trans
    (Finset.sum_congr rfl fun c _ => congrArg src (lift_row h r c))

/-- A minimum over ONE axis, read at the ideal values: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A row minimum read at row `r`: the fold of `min` from `+∞`'s word over the columns. -/
theorem rowMin_apply (src : FVec Ideal S512x2048 .f32) (h : S512x2048.Reduces [1] S512) (hφ : FKind.Formats .f32)
    (hacc : (0x7F800000#32 : BitVec 32) = 0x7F800000#32) (r : Fin 512) :
    multiReduction (F := Ideal) .minimumf [1] S512 src 0x7F800000#32 h hφ hacc (ix1 r)
      = (Finset.univ : Finset (Fin 2048)).fold min (Ideal.ofBits .f32 0x7F800000#32) (fun c => src (ix2 r c)) :=
  (multiReduction_minimumf_single src 0x7F800000#32 h hφ hacc (ix1 r)).trans
    (congrArg (fun f => (Finset.univ : Finset (Fin 2048)).fold min (Ideal.ofBits .f32 0x7F800000#32) f)
      (funext fun c => congrArg src (lift_row h r c)))

/-! ## The product of the rows with the code words -/

theorem lhs_axis0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_axis1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_axis0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_axis1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into a zero accumulator, read at `(r, c)`: row `r` of the left operand against row `c` of the right one. -/
theorem matmul_rows_apply (a : FVec Ideal S512x2048 .bf16) (b : FVec Ideal S2048x2048 .bf16) (r : Fin 512) (c : Fin 2048) :
    matmul (F := Ideal) dot_S512x2048_S2048x2048_S512x2048_1_1_0_0_n_n none a b (constant S512x2048 .f32 0x00000000#32) (ix2 r c)
      = ∑ k : Fin 2048, a (ix2 r k) * b (ix2 c k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 r c) ((contrEquiv1 dot_S512x2048_S2048x2048_S512x2048_1_1_0_0_n_n 2048 rfl rfl).symm k) = ix2 r k := funext fun d => Fin.ext (by
    match d with
    | ⟨0, _⟩ => exact lhs_axis0 _ _
    | ⟨1, _⟩ => exact (lhs_axis1 _ _).trans hk)
  have er : dot_S512x2048_S2048x2048_S512x2048_1_1_0_0_n_n.rhsIdx (ix2 r c) ((contrEquiv1 dot_S512x2048_S2048x2048_S512x2048_1_1_0_0_n_n 2048 rfl rfl).symm k) = ix2 c k := funext fun d => Fin.ext (by
    match d with
    | ⟨0, _⟩ => exact rhs_axis0 _ _
    | ⟨1, _⟩ => exact (rhs_axis1 _ _).trans hk)
  rw [el, er]

/-! ## The distance -/

/-- The body's distance array: `-2` times the product, plus the code words' sums along each row. -/
def kdist (x0 : Vec Ideal S512x2048 .f32) (x1 : Vec Ideal S2048x2048 .bf16) (x2 : Vec Ideal S1x2048 .f32) : FVec Ideal S512x2048 .f32 :=
  addf (mulf (broadcast S512x2048 (Scalar.ofBits .f32 0xC0000000#32))
      (matmul dot_S512x2048_S2048x2048_S512x2048_1_1_0_0_n_n none (truncf .bf16 x0 bitsLt_bf16_f32 : FVec Ideal S512x2048 .bf16)
        (shapeCast S2048x2048 x1 shapeCasts_S2048x2048_S2048x2048 : FVec Ideal S2048x2048 .bf16) (constant S512x2048 .f32 0x00000000#32)))
    (broadcastTo S512x2048 (shapeCast S1x2048 x2 shapeCasts_S1x2048_S1x2048 : FVec Ideal S1x2048 .f32) broadcasts_S1x2048_S512x2048)

/-- The distance array at `(r, c)` is the specification's distance of row `r` to class `c`. -/
theorem kdist_apply (x0 : Vec Ideal S512x2048 .f32) (x1 : Vec Ideal S2048x2048 .bf16) (x2 : Vec Ideal S1x2048 .f32)
    (r : Fin 512) (c : Fin 2048) :
    kdist x0 x1 x2 (ix2 r c)
      = Cert.Coding.pdistOf (fun k => x0 (ix2 r k)) (fun c k => x1 (ix2 c k)) (fun c => x2 (ix2 (0 : Fin 1) c)) c := by
  unfold kdist Cert.Coding.pdistOf
  rw [addf_apply, mulf_apply, broadcast_apply, matmul_rows_apply, shapeCast_self, shapeCast_self, broadcastTo_1b_ab_apply]
  rfl

/-! ## From the distance array to the stored column -/

/-- What the body computes from the distance array `d` and the label column `x3`: per row, the logarithm of the
    sum of the exponentials of (the row's least distance minus each distance), plus the distance picked by the label,
    minus the row's least distance. -/
def ktail (d : FVec Ideal S512x2048 .f32) (x3 : Vec Ideal S512x1 .i32) : FVec Ideal S512x1 .f32 :=
  have v12 : IVec S512x1 32 := shapeCast S512x1 x3 shapeCasts_S512x1_S512x1
  have v13 : IVec S512x2048 32 := iota .tc S512x2048 32 [1] iota_S512x2048_d1_w32
  have v14 : IVec S512x2048 32 := broadcastTo S512x2048 v12 broadcasts_S512x1_S512x2048
  have v15 : IVec S512x2048 1 := cmpi .eq v14 v13
  have v16 : FVec Ideal S512x2048 .f32 := broadcast S512x2048 (Scalar.ofBits .f32 0x00000000#32)
  have v17 : FVec Ideal S512x2048 .f32 := select v15 d v16
  have v18 : FVec Ideal S512 .f32 := multiReduction .add [1] S512 v17 0x00000000#32 reduces_S512x2048_S512 (.inl rfl) rfl
  have v19 : FVec Ideal S512x1 .f32 := shapeCast S512x1 v18 shapeCasts_S512_S512x1
  have v20 : FVec Ideal S512 .f32 := multiReduction .minimumf [1] S512 d 0x7F800000#32 reduces_S512x2048_S512 (.inl rfl) rfl
  have v21 : FVec Ideal S512x1 .f32 := shapeCast S512x1 v20 shapeCasts_S512_S512x1
  have v22 : FVec Ideal S512x2048 .f32 := broadcastTo S512x2048 v21 broadcasts_S512x1_S512x2048
  have v23 : FVec Ideal S512x2048 .f32 := subf v22 d
  have v24 : FVec Ideal S512x2048 .f32 := exp v23
  have v25 : FVec Ideal S512 .f32 := multiReduction .add [1] S512 v24 0x00000000#32 reduces_S512x2048_S512 (.inl rfl) rfl
  have v26 : FVec Ideal S512x1 .f32 := shapeCast S512x1 v25 shapeCasts_S512_S512x1
  have v27 : FVec Ideal S512x1 .f32 := log v26
  have v28 : FVec Ideal S512x1 .f32 := addf v27 v19
  have v29 : FVec Ideal S512x1 .f32 := subf v28 v21
  v29

/-- The body's payload is that function of its distance array. -/
theorem k0_pay1_eq (x0 : Vec Ideal S512x2048 .f32) (x1 : Vec Ideal S2048x2048 .bf16) (x2 : Vec Ideal S1x2048 .f32)
    (x3 : Vec Ideal S512x1 .i32) : k0_pay1 (F := Ideal) x0 x1 x2 x3 = ktail (kdist x0 x1 x2) x3 := rfl

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (p : CmpIPredicate) (a b : IVec s w) (i : s.Idx) : cmpi p a b i = IntOp.cmpi p (a i) (b i) := rfl

/-- The stored column at row `r`, over the distance array read by coordinates. -/
theorem ktail_apply (d : FVec Ideal S512x2048 .f32) (x3 : Vec Ideal S512x1 .i32) (r : Fin 512) :
    ktail d x3 (ix2 r (0 : Fin 1))
      = Ideal.log (∑ c : Fin 2048, Ideal.exp ((Finset.univ : Finset (Fin 2048)).fold min Cert.Coding.posInf (fun c => d (ix2 r c)) - d (ix2 r c)))
        + (∑ c : Fin 2048, Scalar.select (IntOp.cmpi .eq (x3 (ix2 r (0 : Fin 1))) (BitVec.ofNat 32 c.val)) (d (ix2 r c)) (0 : EReal))
        - (Finset.univ : Finset (Fin 2048)).fold min Cert.Coding.posInf (fun c => d (ix2 r c)) := by
  unfold ktail
  dsimp only
  rw [subf_apply, addf_apply, log_apply, shapeCast_a_a1_apply, shapeCast_a_a1_apply, shapeCast_a_a1_apply,
    rowSum_apply, rowSum_apply, rowMin_apply]
  refine congrArg₂ (· - ·) (congrArg₂ (· + ·) (congrArg Ideal.log (Finset.sum_congr rfl fun c _ => ?_))
    (Finset.sum_congr rfl fun c _ => ?_)) rfl
  · rw [exp_apply, subf_apply, broadcastTo_a1_ab_apply, shapeCast_a_a1_apply, rowMin_apply]
  · rw [select_apply, cmpi_apply, broadcastTo_a1_ab_apply, shapeCast_self, iota_single_apply, broadcast_apply,
      Ideal.ofBits_def, Ideal.ofBits_zero_f32]

theorem pay_apply (x0 : Vec Ideal S512x2048 .f32) (x1 : Vec Ideal S2048x2048 .bf16) (x2 : Vec Ideal S1x2048 .f32)
    (x3 : Vec Ideal S512x1 .i32) (r : Fin 512) :
    (k0_pay1 (F := Ideal) x0 x1 x2 x3) (ix2 r (0 : Fin 1))
      = Cert.Coding.rowOf (fun k => x0 (ix2 r k)) (fun c k => x1 (ix2 c k)) (fun c => x2 (ix2 (0 : Fin 1) c)) (x3 (ix2 r (0 : Fin 1))) := by
  rw [k0_pay1_eq, ktail_apply]
  unfold Cert.Coding.rowOf
  simp only [kdist_apply]

end Cert.KernelIdeal.KerPayload

end
-- ==== Proof.KerValue.lean ====
/-
  The kernel program's run with its result named: the specification's `lossK` of the argument arrays.

  Before the region the host narrows the code words (the identity on the extended reals), sums each code word along
  its second axis from the zero word, and reshapes that vector to a row and the labels to a column. The region runs
  32 grid points; point `t` loads rows `512 t … 512 t + 511` of the input and of the label column, the code words and
  their sums whole, and stores one column block whose entry `r` is the loss of row `512 t + r`. The blocks tile the
  output column, so after the last point it is the column of all 16384 row losses. After the region the host sums
  that column from the zero word and divides by the word of the row count: the specification's mean.
-/
import proofs.«424931_j65798898975305_3_alg».proof.Proof.Gen.KernelIdeal.Frame
import proofs.«424931_j65798898975305_3_alg».proof.Proof.Spec
import proofs.«424931_j65798898975305_3_alg».proof.Proof.KerPayload
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.KerValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The argument arrays of core `c`, by coordinates. -/
def X (c : Dev nD) : Fin 16384 → Fin 2048 → EReal := fun b k => m ((c.tc : Thread nD τ).loc main_arg0) (ix2 b k)
def CB (c : Dev nD) : Fin 2048 → Fin 2048 → EReal := fun c' k => m ((c.tc : Thread nD τ).loc main_arg2) (ix2 c' k)
def L (c : Dev nD) : Fin 16384 → BitVec 32 := fun b => m ((c.tc : Thread nD τ).loc main_arg1) (ix1 b)

/-- The code words the region finds are the argument's: the narrowing of a float is the identity on the extended reals. -/
theorem V_v0_apply (c : Dev nD) (c' k : Fin 2048) : (V m c main_v0 : S2048x2048.Idx → EReal) (ix2 c' k) = CB m c c' k := by
  have e : (V m c main_v0 : S2048x2048.Idx → EReal) = truncf (F := Ideal) (s := S2048x2048) (φ := .f32) .bf16 (m ((c.tc : Thread nD τ).loc main_arg2)) bitsLt_bf16_f32 := by
    show StableHlo.after hostOps0 (fun b => m (c, b)) (Proc.devRef .tc main_v0) = _
    after_results
  rw [e]
  rfl

/-- The label column the region finds is the label vector, entry `b` at `(b, 0)`. -/
theorem V_v3_apply (c : Dev nD) (b : Fin 16384) : (V m c main_v3 : S16384x1.Idx → BitVec 32) (ix2 b (0 : Fin 1)) = L m c b := by
  have e : (V m c main_v3 : S16384x1.Idx → BitVec 32) = shapeCast S16384x1 (m ((c.tc : Thread nD τ).loc main_arg1)) shapeCasts_S16384_S16384x1 := by
    show StableHlo.after hostOps0 (fun b => m (c, b)) (Proc.devRef .tc main_v3) = _
    after_results
    rfl
  rw [e]
  rw [shapeCast_apply _ _ _ (ix1 b) (by rw [Shape.rowMajor_val_one, Shape.rowMajor_val_two]; simp)]
  rfl

/-- A row of a square array summed along its second axis, the summation index put back by coordinates. -/
theorem rowSum_eq (x : S2048x2048.Idx → EReal) (h : S2048x2048.Reduces [1] S2048) (c' : Fin 2048) :
    ∑ k : Fin (S2048x2048.size 1), x (h.lift (ix1 c') k) = ∑ k : Fin 2048, x (ix2 c' k) :=
  Finset.sum_congr rfl fun k _ => congrArg x (funext fun a => by
    match a with
    | ⟨0, _⟩ => rfl
    | ⟨1, _⟩ => rfl)

/-- The row of code-word sums the region finds: entry `c'` is the sum of code word `c'`, summed from the zero word. -/
theorem V_v2_apply (c : Dev nD) (c' : Fin 2048) : (V m c main_v2 : S1x2048.Idx → EReal) (ix2 (0 : Fin 1) c') = Cert.Coding.codeSum (CB m c) c' := by
  have e : (V m c main_v2 : S1x2048.Idx → EReal) = shapeCast S1x2048 (Host.reduceAdd (F := Ideal) (m ((c.tc : Thread nD τ).loc main_arg2)) (constant (F := Ideal) S_ .f32 0x00000000#32) reducesTo_S2048x2048_S2048_d1 h_S_) shapeCasts_S2048_S1x2048 := by
    show StableHlo.after hostOps0 (fun b => m (c, b)) (Proc.devRef .tc main_v2) = _
    after_results
    rfl
  rw [e]
  rw [shapeCast_apply _ _ _ (ix1 c') (by rw [Shape.rowMajor_val_one, Shape.rowMajor_val_two]; simp)]
  rw [hostReduceAdd_apply, Ideal.hostReduceAdd_single reducesTo_S2048x2048_S2048_d1 (by decide : S2048x2048.Reduces [1] S2048)]
  rw [show (constant (F := Ideal) S_ .f32 0x00000000#32) (Shape.Idx.first h_S_) = Ideal.ofBits .f32 0x00000000#32 from rfl,
    Ideal.ofBits_zero_f32, zero_add]
  exact rowSum_eq (m ((c.tc : Thread nD τ).loc main_arg2)) _ c'

/-- The column of row losses: the output array the region leaves, entry `(b, 0)` the loss of row `b`. -/
def G (c : Dev nD) : S16384x1.Idx → EReal := fun i => Cert.Coding.rowK (X m c) (CB m c) (L m c) (i 0)

theorem hz : (![0, 0] : Fin 2 → Nat) = fun _ => 0 := funext fun a => by fin_cases a <;> rfl

/-- The block index of each window at grid point `t`: the row-blocked windows sit at block `(t, 0)`, the whole-array ones at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One row of what the body stores, over any blocks whose rows are given by coordinates. -/
theorem pay_row (x0 : Vec Ideal S512x2048 .f32) (x1 : Vec Ideal S2048x2048 .bf16) (x2 : Vec Ideal S1x2048 .f32)
    (x3 : Vec Ideal S512x1 .i32) (y : S512x1.Idx) (Xr : Fin 2048 → EReal) (W : Fin 2048 → Fin 2048 → EReal)
    (s : Fin 2048 → EReal) (l : BitVec 32)
    (h0 : ∀ k : Fin 2048, x0 (ix2 (y 0) k) = Xr k) (h1 : ∀ c' k : Fin 2048, x1 (ix2 c' k) = W c' k)
    (h2 : ∀ c' : Fin 2048, x2 (ix2 (0 : Fin 1) c') = s c') (h3 : x3 (ix2 (y 0) (0 : Fin 1)) = l) :
    k0_pay1 (F := Ideal) x0 x1 x2 x3 y = Cert.Coding.rowOf Xr W s l := by
  have hy : y = ix2 (y 0) (0 : Fin 1) := by
    funext a
    match a with
    | ⟨0, _⟩ => rfl
    | ⟨1, _⟩ => exact Subsingleton.elim (α := Fin 1) _ _
  refine (congrArg (k0_pay1 (F := Ideal) x0 x1 x2 x3) hy).trans ?_
  refine (KerPayload.pay_apply x0 x1 x2 x3 (y 0)).trans ?_
  rw [funext h0, funext h2, h3, show (fun c' k => x1 (ix2 c' k)) = W from funext fun c' => funext (h1 c')]

/-- Block `t` of the input rows: its row `r` is row `512 t + r` of the argument. -/
theorem iblk0_apply (c : Dev nD) (t : Fin cfg0.N) (r : Fin 512) (k : Fin 2048) (b : Fin 16384)
    (hb : b.val = t.val * 512 + r.val) :
    (iblk m c 0 t : Vec Ideal S512x2048 .f32) (ix2 r k) = X m c b k := by
  obtain ⟨e0, e1, -⟩ := idx_facts t
  unfold iblk
  rw [View.read_apply]
  show V m c main_arg0 _ = m ((c.tc : Thread nD τ).loc main_arg0) (ix2 b k)
  rw [V_main_arg0]
  congr 1
  funext a
  apply Fin.ext
  match a with
  | ⟨0, _⟩ => show win0_0.index t (0 : Fin 2) * 512 + 1 * r.val = b.val; omega
  | ⟨1, _⟩ => show win0_0.index t (1 : Fin 2) * 2048 + 1 * k.val = k.val; omega

/-- The code words are staged whole: the block is the array. -/
theorem iblk1_apply (c : Dev nD) (t : Fin cfg0.N) (c' k : Fin 2048) :
    (iblk m c 1 t : Vec Ideal S2048x2048 .bf16) (ix2 c' k) = CB m c c' k := by
  obtain ⟨-, -, e0, e1, -⟩ := idx_facts t
  unfold iblk
  rw [View.read_apply]
  show V m c main_v0 _ = _
  refine (congrArg (V m c main_v0 : S2048x2048.Idx → EReal) (funext fun a => Fin.ext ?_)).trans (V_v0_apply m c c' k)
  match a with
  | ⟨0, _⟩ => show win0_1.index t (0 : Fin 2) * 2048 + 1 * c'.val = c'.val; omega
  | ⟨1, _⟩ => show win0_1.index t (1 : Fin 2) * 2048 + 1 * k.val = k.val; omega

/-- The row of code-word sums is staged whole. -/
theorem iblk2_apply (c : Dev nD) (t : Fin cfg0.N) (c' : Fin 2048) :
    (iblk m c 2 t : Vec Ideal S1x2048 .f32) (ix2 (0 : Fin 1) c') = Cert.Coding.codeSum (CB m c) c' := by
  obtain ⟨-, -, -, -, e0, e1, -⟩ := idx_facts t
  unfold iblk
  rw [View.read_apply]
  show V m c main_v2 _ = _
  refine (congrArg (V m c main_v2 : S1x2048.Idx → EReal) (funext fun a => Fin.ext ?_)).trans (V_v2_apply m c c')
  match a with
  | ⟨0, _⟩ => show win0_2.index t (0 : Fin 2) * 1 + 1 * 0 = 0; omega
  | ⟨1, _⟩ => show win0_2.index t (1 : Fin 2) * 2048 + 1 * c'.val = c'.val; omega

/-- Block `t` of the label column: its entry `r` is the label of row `512 t + r`. -/
theorem iblk3_apply (c : Dev nD) (t : Fin cfg0.N) (r : Fin 512) (b : Fin 16384) (hb : b.val = t.val * 512 + r.val) :
    (iblk m c 3 t : Vec Ideal S512x1 .i32) (ix2 r (0 : Fin 1)) = L m c b := by
  obtain ⟨-, -, -, -, -, -, e0, e1, -⟩ := idx_facts t
  unfold iblk
  rw [View.read_apply]
  show V m c main_v3 _ = _
  refine (congrArg (V m c main_v3 : S16384x1.Idx → BitVec 32) (funext fun a => Fin.ext ?_)).trans (V_v3_apply m c b)
  match a with
  | ⟨0, _⟩ => show win0_3.index t (0 : Fin 2) * 512 + 1 * r.val = b.val; omega
  | ⟨1, _⟩ => show win0_3.index t (1 : Fin 2) * 1 + 1 * 0 = 0; omega

/-- What grid point `t` writes back is block `t` of the column of row losses. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S512x2048) hz, View.ld_unit_zero (S := S2048x2048) hz, View.ld_unit_zero (S := S1x2048) hz, View.ld_unit_zero (S := S512x1) hz]
  obtain ⟨-, -, -, -, -, -, -, -, e0, e1⟩ := idx_facts t
  have ht : t.val < 32 := lt_of_lt_of_eq t.isLt (show cfg0.N = 32 from N_0)
  funext j
  have hj : (j 0).val < 512 := (j 0).isLt
  have hb : t.val * 512 + (j 0).val < 16384 := by omega
  show k0_pay1 (F := Ideal) (iblk m c 0 t) (iblk m c 1 t) (iblk m c 2 t) (iblk m c 3 t) j = G m c (((cfg0.win 4).blk t).view.emb j)
  have hi : ((cfg0.win 4).blk t).view.emb j = ix2 (⟨t.val * 512 + (j 0).val, hb⟩ : Fin 16384) (0 : Fin 1) := by
    funext a
    apply Fin.ext
    match a with
    | ⟨0, _⟩ => show win0_4.index t (0 : Fin 2) * 512 + 1 * (j 0).val = t.val * 512 + (j 0).val; omega
    | ⟨1, _⟩ => show win0_4.index t (1 : Fin 2) * 1 + 1 * (j 1).val = 0; have : (j 1).val < 1 := (j 1).isLt; omega
  rw [hi]
  show _ = Cert.Coding.rowK (X m c) (CB m c) (L m c) ⟨t.val * 512 + (j 0).val, hb⟩
  rw [Cert.Coding.rowK_eq_rowOf]
  exact pay_row (iblk m c 0 t) (iblk m c 1 t) (iblk m c 2 t) (iblk m c 3 t) j _ _ _ _
    (fun k => iblk0_apply m c t (j 0) k _ rfl) (fun c' k => iblk1_apply m c t c' k) (fun c' => iblk2_apply m c t c')
    (iblk3_apply m c t (j 0) _ rfl)

/-- An index of the output array lies in point `t`'s block iff each coordinate lies in the block's range on its axis. -/
theorem mem_blk (t : Fin cfg0.N) (i : S16384x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v4).slice (win0_4.rect t)).set ↔ _
  rw [View.set_slice_whole, Rect.mem_set_unit]
  exact Iff.rfl

/-- The blocks tile the column (row `b` lies in block `b / 512`), so after the last point the output array is the column of row losses. -/
theorem final (c : Dev nD) : (dats m 0 c).arrAt 4 cfg0.N = G m c :=
  (dats m 0 c).arrAt_eq_of_cover 4 (G m c) (fun t _ => flushed_eq m c t) fun i => by
    have hi0 : (i 0).val < 16384 := (i 0).isLt
    have hi1 : (i 1).val < 1 := (i 1).isLt
    have hN : cfg0.N = 32 := N_0
    have ht : (i 0).val / 512 < cfg0.N := by rw [hN]; omega
    obtain ⟨-, -, -, -, -, -, -, -, e0, e1⟩ := idx_facts ⟨(i 0).val / 512, ht⟩
    refine ⟨⟨(i 0).val / 512, ht⟩, flush0_4 _, ?_⟩
    rw [mem_blk]
    intro a
    match a with
    | ⟨0, _⟩ =>
      show win0_4.index ⟨(i 0).val / 512, ht⟩ (0 : Fin 2) * 512 ≤ (i 0).val ∧ (i 0).val < win0_4.index ⟨(i 0).val / 512, ht⟩ (0 : Fin 2) * 512 + 512
      rw [e0]; show (i 0).val / 512 * 512 ≤ (i 0).val ∧ (i 0).val < (i 0).val / 512 * 512 + 512; omega
    | ⟨1, _⟩ =>
      show win0_4.index ⟨(i 0).val / 512, ht⟩ (1 : Fin 2) * 1 ≤ (i 1).val ∧ (i 1).val < win0_4.index ⟨(i 0).val / 512, ht⟩ (1 : Fin 2) * 1 + 1
      rw [e1]; omega

/-- The host lines after the region: the column summed from the zero word, divided by the row count's word. -/
theorem tail_eq (c : Dev nD) : Pipeline.afterTail₀ cfgs (dats m) 0 (V0 m) [hostOps1] c main_v6 = fun _ => Cert.Coding.lossK (X m c) (CB m c) (L m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4) = G m c :=
    (Pipeline.withArrays_arr spec0 launch0.win.arr_inj c _ _ 4).trans (final m c)
  rw [hw]
  funext z
  rw [hostDivf_apply, hostReduceAdd_apply, Ideal.hostReduceAdd_total _ (fun b => b.elim0)]
  rw [show (constant (F := Ideal) S_ .f32 0x00000000#32) (Shape.Idx.first h_S_) = Ideal.ofBits .f32 0x00000000#32 from rfl,
    Ideal.ofBits_zero_f32, zero_add]
  have hs : ∑ i : S16384x1.Idx, G m c i = ∑ b : Fin 16384, Cert.Coding.rowK (X m c) (CB m c) (L m c) b := by
    rw [sum_idx2]
    refine Finset.sum_congr rfl fun b _ => ?_
    rw [Fin.sum_univ_one]
    rfl
  rw [hs]
  rfl

/-- The run, read: the result buffer holds the specification's loss of the argument arrays, and the arguments end as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = (fun _ => Cert.Coding.lossK (X m c) (CB m c) (L m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.lean ====
/-
  The coding loss: a kernel that scores each row against every code word by ONE product, `-2 x·c + ∑ c`, and takes a
  log-sum-exp around the label's score, shifted by the row's least score — against a reference that scores by the
  Hamming-like distance `-(x·c + (1-x)·(1-c))`, shifts every score by the least of all, and writes the same loss as
  `log (1 + (∑ exp - e) / e)`. Both return the mean of the rows' losses.

  On the extended reals the two agree where every entry of the inputs and of the code book is a real number and every
  label names one of the 2048 classes, which is what the precondition says (Proof/PreDecode.lean):
  the two distances differ by a number that is constant along a row, every shift cancels inside the logarithm,
  and with the label in range both programs pick the same term for it (Proof/Bridge.lean). Outside the label range
  both read "no class" as 0 and the reference's shift no longer cancels, so the range is needed.

  The kernel program's result is read off its frame run: each block of 512 rows is the row loss of the block's rows
  (Proof/KerPayload.lean), the blocks tile the output column, the code words' sums and the reshaped labels come
  from the operations before the launch and the mean from the operations after it (Proof/KerValue.lean). The reference's
  result is its run read one operation at a time (Proof/RefValue.lean). The word-level kernel needs its frame only,
  and the ideal pass rewrote nothing, so there is nothing to preserve.
-/
import proofs.«424931_j65798898975305_3_alg».proof.Defs
import proofs.«424931_j65798898975305_3_alg».proof.Proof.Gen.Kernel
import proofs.«424931_j65798898975305_3_alg».proof.Proof.Gen.Kernel.Skeleton
import proofs.«424931_j65798898975305_3_alg».proof.Proof.Gen.Kernel.Launch
import proofs.«424931_j65798898975305_3_alg».proof.Proof.Gen.Kernel.Points
import proofs.«424931_j65798898975305_3_alg».proof.Proof.Gen.Kernel.Frame
import proofs.«424931_j65798898975305_3_alg».proof.Proof.Gen.KernelIdeal
import proofs.«424931_j65798898975305_3_alg».proof.Proof.Gen.KernelIdeal.Skeleton
import proofs.«424931_j65798898975305_3_alg».proof.Proof.Gen.KernelIdeal.Launch
import proofs.«424931_j65798898975305_3_alg».proof.Proof.Gen.KernelIdeal.Points
import proofs.«424931_j65798898975305_3_alg».proof.Proof.Gen.KernelIdeal.Frame
import proofs.«424931_j65798898975305_3_alg».proof.Proof.Gen.ReferenceIdeal
import proofs.«424931_j65798898975305_3_alg».proof.Proof.Gen.Pre_finite_inputs
import proofs.«424931_j65798898975305_3_alg».proof.Proof.Gen.ReferenceIdeal.Run
import proofs.«424931_j65798898975305_3_alg».proof.Proof.Gen.ReferenceIdeal.Read
import proofs.«424931_j65798898975305_3_alg».proof.Proof.PreDecode
import proofs.«424931_j65798898975305_3_alg».proof.Proof.Bridge
import proofs.«424931_j65798898975305_3_alg».proof.Proof.RefValue
import proofs.«424931_j65798898975305_3_alg».proof.Proof.KerValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the kernel's loss of the arguments: the
    kernel by its run, the reference because its own loss is the same number under the precondition. -/
theorem algebraic : Cert.algebraic_KernelIdeal_ReferenceIdeal := by
  intro m ρ m' ρ' hpre hagree
  refine ⟨fun c => fun _ => Cert.Coding.lossK (Cert.KernelIdeal.KerValue.X m c) (Cert.KernelIdeal.KerValue.CB m c)
    (Cert.KernelIdeal.KerValue.L m c), Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite_inputs.Decode.decode _ _ _ (hpre c)
  rw [Cert.ReferenceIdeal.Read.val_main_v27_eq, (hagree c).1, (hagree c).2.1, (hagree c).2.2,
    Cert.ReferenceIdeal.RefValue.result_eq]
  funext _
  exact (Cert.Coding.lossK_eq_lossR _ _ _ (fun _ _ => h0 _) (fun _ _ => h2 _) (fun _ => h1 _) _
    (Cert.ReferenceIdeal.RefValue.globalMin_real _ _ h0 h2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
